-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S500000x2 : Shape := ⟨2, ![500000, 2]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1x64 .f32) (main_arg14 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S1x64 .f32 := Host.absf main_arg13
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S64x128 .f32) (main_arg12 : FVec F S64 .f32) (main_arg13 : FVec F S1x64 .f32) (main_arg14 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S64x128 .f32) (main_arg12 : FVec F S64 .f32) (main_arg13 : FVec F S1x64 .f32) (main_arg14 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S500000x2 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S64x128 .f32) (main_arg12 : FVec F S64 .f32) (main_arg13 : FVec F S1x64 .f32) (main_arg14 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S500000x2 : Shape := ⟨2, ![500000, 2]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S5000x128 : Shape := ⟨2, ![5000, 128]⟩
abbrev S1x128 : Shape := ⟨2, ![1, 128]⟩
abbrev S500000x1 : Shape := ⟨2, ![500000, 1]⟩
abbrev S500000 : Shape := ⟨1, ![500000]⟩
abbrev S500000x128 : Shape := ⟨2, ![500000, 128]⟩
abbrev S5000x1 : Shape := ⟨2, ![5000, 1]⟩
abbrev S128x64 : Shape := ⟨2, ![128, 64]⟩
abbrev S5000x64 : Shape := ⟨2, ![5000, 64]⟩
abbrev S64x1 : Shape := ⟨2, ![64, 1]⟩
abbrev S1x1 : Shape := ⟨2, ![1, 1]⟩

abbrev nBuf : Space → Nat
  | .hbm => 89
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S500000x2, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S64x128, .f32⟩
  | .hbm, ⟨12, _⟩ => ⟨S64, .f32⟩
  | .hbm, ⟨13, _⟩ => ⟨S1x64, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S500000x1, .i32⟩
  | .hbm, ⟨66, _⟩ => ⟨S500000, .i32⟩
  | .hbm, ⟨67, _⟩ => ⟨S500000x1, .i32⟩
  | .hbm, ⟨68, _⟩ => ⟨S500000, .i32⟩
  | .hbm, ⟨69, _⟩ => ⟨S_, .i32⟩
  | .hbm, ⟨70, _⟩ => ⟨S500000, .i32⟩
  | .hbm, ⟨71, _⟩ => ⟨S500000, .i1⟩
  | .hbm, ⟨72, _⟩ => ⟨S_, .i32⟩
  | .hbm, ⟨73, _⟩ => ⟨S500000, .i32⟩
  | .hbm, ⟨74, _⟩ => ⟨S500000, .i32⟩
  | .hbm, ⟨75, _⟩ => ⟨S500000, .i32⟩
  | .hbm, ⟨76, _⟩ => ⟨S500000x1, .i32⟩
  | .hbm, ⟨77, _⟩ => ⟨S500000x128, .f32⟩
  | .hbm, ⟨78, _⟩ => ⟨S_, .i32⟩
  | .hbm, ⟨79, _⟩ => ⟨S500000, .i32⟩
  | .hbm, ⟨80, _⟩ => ⟨S500000, .i1⟩
  | .hbm, ⟨81, _⟩ => ⟨S_, .i32⟩
  | .hbm, ⟨82, _⟩ => ⟨S500000, .i32⟩
  | .hbm, ⟨83, _⟩ => ⟨S500000, .i32⟩
  | .hbm, ⟨84, _⟩ => ⟨S500000, .i32⟩
  | .hbm, ⟨85, _⟩ => ⟨S500000x1, .i32⟩
  | .hbm, ⟨86, _⟩ => ⟨S500000x128, .f32⟩
  | .hbm, ⟨87, _⟩ => ⟨S500000x1, .f32⟩
  | .hbm, ⟨88, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S64x128, .f32⟩
  | .local _ .vmem, ⟨25, _⟩ => ⟨S64, .f32⟩
  | .local _ .vmem, ⟨26, _⟩ => ⟨S1x64, .f32⟩
  | .local _ .vmem, ⟨27, _⟩ => ⟨S1, .f32⟩
  | .local _ .vmem, ⟨28, _⟩ => ⟨S5000x1, .f32⟩
  | .local _ .vmem, ⟨29, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_8 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S500000x2_S500000x1_0_0 : S500000x2.Slices ![0, 0] S500000x1
  shapeCasts_S500000x1_S500000 : S500000x1.ShapeCasts S500000
  slices_S500000x2_S500000x1_0_1 : S500000x2.Slices ![0, 1] S500000x1
  bcast_S_S500000 : S_.BroadcastsInDim S500000 (![] : Fin 0 → Fin S500000.rank)
  bcast_S500000_S500000x1_0 : S500000.BroadcastsInDim S500000x1 (![0] : Fin 1 → Fin S500000x1.rank)
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S1x64_S1x64_0_0 : ∀ a, (![0, 0] : Fin 2 → Nat) a + S1x64.size a ≤ S1x64.size a
  h_S1x64 : 0 < S1x64.numel
  transposes_S1x64_p1_0_S64x1 : S1x64.Transposes [1, 0] S64x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  gather_S100000x128_S500000x1_S500000x128_1_0_n_n_0_1_1128_wf : GatherDims.WF S100000x128 S500000x1 S500000x128 [1] [0] [] [0] [] 1 ![1, 128]
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1.size a ≤ S1.size a
  hwx2_7 : ∀ i : grid2.Coords, EltTy.bits .f32 = 32 ∨ (Rect.block (s := S1) S1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x1.size a ≤ S500000x1.size a
  hwx2_8 : ∀ i : grid2.Coords, EltTy.bits .f32 = 32 ∨ (Rect.block (s := S500000x1) S5000x1.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v58) S5000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S500000x2 : Shape := ⟨2, ![500000, 2]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S500000x1 : Shape := ⟨2, ![500000, 1]⟩
abbrev S500000 : Shape := ⟨1, ![500000]⟩
abbrev S500000x128 : Shape := ⟨2, ![500000, 128]⟩
abbrev S128x64 : Shape := ⟨2, ![128, 64]⟩
abbrev S500000x64 : Shape := ⟨2, ![500000, 64]⟩
abbrev S64x1 : Shape := ⟨2, ![64, 1]⟩
abbrev S1x1 : Shape := ⟨2, ![1, 1]⟩

abbrev nBuf : Space → Nat
  | .hbm => 133
  | .vmem => 0
  | .smem => 0
  | _ => 0

abbrev hbmTy0_0 (i : Nat) : BufTy := match i % 128 with
  | 0 => ⟨S100000x128, .f32⟩
  | 1 => ⟨S2x1600000, .i32⟩
  | 2 => ⟨S500000x2, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S64x128, .f32⟩
  | 12 => ⟨S64, .f32⟩
  | 13 => ⟨S1x64, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S128x128, .f32⟩
  | 45 => ⟨S100000x128, .f32⟩
  | 46 => ⟨S1x128, .f32⟩
  | 47 => ⟨S100000x128, .f32⟩
  | 48 => ⟨S100000x128, .f32⟩
  | 49 => ⟨S128x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S128x128, .f32⟩
  | 81 => ⟨S100000x128, .f32⟩
  | 82 => ⟨S1x128, .f32⟩
  | 83 => ⟨S100000x128, .f32⟩
  | 84 => ⟨S100000x128, .f32⟩
  | 85 => ⟨S128x128, .f32⟩
  | 86 => ⟨S100000x128, .f32⟩
  | 87 => ⟨S100000x128, .f32⟩
  | 88 => ⟨S500000x1, .i32⟩
  | 89 => ⟨S500000, .i32⟩
  | 90 => ⟨S_, .i32⟩
  | 91 => ⟨S500000, .i32⟩
  | 92 => ⟨S500000, .i1⟩
  | 93 => ⟨S_, .i32⟩
  | 94 => ⟨S500000, .i32⟩
  | 95 => ⟨S500000, .i32⟩
  | 96 => ⟨S500000, .i32⟩
  | 97 => ⟨S500000x1, .i32⟩
  | 98 => ⟨S500000x128, .f32⟩
  | 99 => ⟨S500000x1, .i32⟩
  | 100 => ⟨S500000, .i32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x128, .f32⟩
  | 110 => ⟨S500000x128, .f32⟩
  | 111 => ⟨S128x128, .f32⟩
  | 112 => ⟨S500000x128, .f32⟩
  | 113 => ⟨S1x128, .f32⟩
  | 114 => ⟨S500000x128, .f32⟩
  | 115 => ⟨S500000x128, .f32⟩
  | 116 => ⟨S_, .f32⟩
  | 117 => ⟨S500000x128, .f32⟩
  | 118 => ⟨S500000x128, .f32⟩
  | 119 => ⟨S128x64, .f32⟩
  | 120 => ⟨S500000x64, .f32⟩
  | 121 => ⟨S1x64, .f32⟩
  | 122 => ⟨S500000x64, .f32⟩
  | 123 => ⟨S500000x64, .f32⟩
  | 124 => ⟨S_, .f32⟩
  | 125 => ⟨S500000x64, .f32⟩
  | 126 => ⟨S500000x64, .f32⟩
  | 127 => ⟨S64x1, .f32⟩
  | _ => ⟨S100000x128, .f32⟩

abbrev hbmTy0_1 (i : Nat) : BufTy := match i % 128 with
  | 0 => ⟨S500000x1, .f32⟩
  | 1 => ⟨S1x1, .f32⟩
  | 2 => ⟨S500000x1, .f32⟩
  | 3 => ⟨S500000x1, .f32⟩
  | 4 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_cst : Ref sig .tc := ⟨.hbm, 52, rfl⟩
abbrev main_call0_v0 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_10 : Ref sig .tc := ⟨.hbm, 90, rfl⟩
abbrev main_v61 : Ref sig .tc := ⟨.hbm, 91, rfl⟩
abbrev main_v62 : Ref sig .tc := ⟨.hbm, 92, rfl⟩
abbrev main_c_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_12 : Ref sig .tc := ⟨.hbm, 101, rfl⟩
abbrev main_v70 : Ref sig .tc := ⟨.hbm, 102, rfl⟩
abbrev main_v71 : Ref sig .tc := ⟨.hbm, 103, rfl⟩
abbrev main_c_13 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call1_cst : Ref sig .tc := ⟨.hbm, 116, rfl⟩
abbrev main_call1_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_call2_cst : Ref sig .tc := ⟨.hbm, 124, rfl⟩
abbrev main_call2_v0 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  transposes_S64x128_S128x64_1_0 : S64x128.Transposes [1, 0] S128x64
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  transposes_S1x64_S64x1_1_0 : S1x64.Transposes [1, 0] S64x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  dot_S500000x128_S128x128_S500000x128_1_0_0_1_n_n_wf : DotDims.WF S500000x128 S128x128 S500000x128 [1] [0] [0] [1] [] []
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.Spec.lean ====
/-
  What the three dense stages of the graph network compute, entry by entry, over the extended reals.
  A SAGE layer's output row `r` is the neighbour-mean row times the transpose of `Wl`, plus the bias, plus the node's own
  row times the transpose of `Wr` (then the maximum with zero in the first layer); the decoder takes the entrywise product
  of two embedding rows through three such affine maps, the first two followed by the maximum with zero. Each output row
  depends on the same row of the row-indexed operands only, which is why computing the layer block of rows by block of rows
  gives the same array as computing it whole.
-/
import Idealize.ShloMosaic.PureOps.Ideal
import Idealize.ShloMosaic.Lib.ValueIdx

noncomputable section

open scoped BigOperators

namespace Gnn

open Idealize.ShloMosaic Idealize.ShloMosaic.ValueIdx

/-- The zero every activation is compared with. -/
def zeroF : EReal := Ideal.ofBits .f32 0x00000000#32

/-- Row `r` of a two-axis array. -/
def row {R C : Nat} (a : (⟨2, ![R, C]⟩ : Shape).Idx → EReal) (r : Fin R) : Fin C → EReal := fun k => a (ix2 r k)

/-- Entry `q` of a row times the transpose of `W`: the sum over `k` of `row k · W (q, k)`. -/
def rowDot {K N : Nat} (v : Fin K → EReal) (W : (⟨2, ![N, K]⟩ : Shape).Idx → EReal) (q : Fin N) : EReal :=
  ∑ k : Fin K, v k * W (ix2 q k)

/-- Entry `q` of a SAGE layer's output row before any activation. -/
def sageVal (arow xrow : Fin 128 → EReal) (Wl : (⟨2, ![128, 128]⟩ : Shape).Idx → EReal) (bl : (⟨1, ![128]⟩ : Shape).Idx → EReal)
    (Wr : (⟨2, ![128, 128]⟩ : Shape).Idx → EReal) (q : Fin 128) : EReal :=
  rowDot arow Wl q + bl (ix1 q) + rowDot xrow Wr q

/-- The first layer over all nodes: the affine map, then the maximum with zero. -/
def sageRelu (a x : (⟨2, ![100000, 128]⟩ : Shape).Idx → EReal) (Wl : (⟨2, ![128, 128]⟩ : Shape).Idx → EReal)
    (bl : (⟨1, ![128]⟩ : Shape).Idx → EReal) (Wr : (⟨2, ![128, 128]⟩ : Shape).Idx → EReal) : (⟨2, ![100000, 128]⟩ : Shape).Idx → EReal :=
  fun i => max (sageVal (row a (i 0)) (row x (i 0)) Wl bl Wr (i 1)) zeroF

/-- The second layer over all nodes: the affine map alone. -/
def sageLin (a x : (⟨2, ![100000, 128]⟩ : Shape).Idx → EReal) (Wl : (⟨2, ![128, 128]⟩ : Shape).Idx → EReal)
    (bl : (⟨1, ![128]⟩ : Shape).Idx → EReal) (Wr : (⟨2, ![128, 128]⟩ : Shape).Idx → EReal) : (⟨2, ![100000, 128]⟩ : Shape).Idx → EReal :=
  fun i => sageVal (row a (i 0)) (row x (i 0)) Wl bl Wr (i 1)

/-- The decoder's first hidden row: the product of the two embedding rows through the first affine map and the maximum with zero. -/
def hid1 (z0row z1row : Fin 128 → EReal) (W1 : (⟨2, ![128, 128]⟩ : Shape).Idx → EReal) (b1 : (⟨1, ![128]⟩ : Shape).Idx → EReal) : Fin 128 → EReal :=
  fun q => max (rowDot (fun k => z0row k * z1row k) W1 q + b1 (ix1 q)) zeroF

/-- The decoder's second hidden row. -/
def hid2 (h1 : Fin 128 → EReal) (W2 : (⟨2, ![64, 128]⟩ : Shape).Idx → EReal) (b2 : (⟨1, ![64]⟩ : Shape).Idx → EReal) : Fin 64 → EReal :=
  fun q => max (rowDot h1 W2 q + b2 (ix1 q)) zeroF

/-- The decoder's output for one pair (its one column `q`). -/
def mlpVal (z0row z1row : Fin 128 → EReal) (W1 : (⟨2, ![128, 128]⟩ : Shape).Idx → EReal) (b1 : (⟨1, ![128]⟩ : Shape).Idx → EReal)
    (W2 : (⟨2, ![64, 128]⟩ : Shape).Idx → EReal) (b2 : (⟨1, ![64]⟩ : Shape).Idx → EReal)
    (W3 : (⟨2, ![1, 64]⟩ : Shape).Idx → EReal) (b3 : (⟨1, ![1]⟩ : Shape).Idx → EReal) (q : Fin 1) : EReal :=
  rowDot (hid2 (hid1 z0row z1row W1 b1) W2 b2) W3 q + b3 (ix1 q)

/-- The decoder over all pairs. -/
def mlp (z0 z1 : (⟨2, ![500000, 128]⟩ : Shape).Idx → EReal) (W1 : (⟨2, ![128, 128]⟩ : Shape).Idx → EReal) (b1 : (⟨1, ![128]⟩ : Shape).Idx → EReal)
    (W2 : (⟨2, ![64, 128]⟩ : Shape).Idx → EReal) (b2 : (⟨1, ![64]⟩ : Shape).Idx → EReal)
    (W3 : (⟨2, ![1, 64]⟩ : Shape).Idx → EReal) (b3 : (⟨1, ![1]⟩ : Shape).Idx → EReal) : (⟨2, ![500000, 1]⟩ : Shape).Idx → EReal :=
  fun i => mlpVal (row z0 (i 0)) (row z1 (i 0)) W1 b1 W2 b2 W3 b3 (i 1)

end Gnn

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.SagePayload.lean ====
/-
  The body of each SAGE-layer kernel, read at one entry of the block it stores: entry (p, q) is the affine value of
  row p of the two row-indexed input blocks (Spec's sageVal), in the first layer under the maximum with zero.
  Two readings carry it: a row block times a transposed weight into the zero accumulator is the row's dot product with
  the weight's row q (the format changes are the identity over the extended reals), and the bias reshaped to one row and
  repeated over the rows reads its entry q.
-/
import proofs.«180107_j64888365907988_1_alg».proof.Proof.Gen.KernelIdeal.Skeleton
import proofs.«180107_j64888365907988_1_alg».proof.Proof.Spec
import proofs.«180107_j64888365907988_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- One product term: a row block times the transposed weight, into the zero accumulator, read at an entry. -/
theorem dot_apply (x : Vec Ideal S5000x128 .f32) (W : Vec Ideal S128x128 .f32) (p : Fin 5000) (q : Fin 128) :
    matmul dot_S5000x128_S128x128_S5000x128_1_0_0_1_n_n none
      (truncf .bf16 x bitsLt_bf16_f32 : FVec Ideal S5000x128 .bf16)
      (transpose S128x128 [1, 0] (truncf .bf16 W bitsLt_bf16_f32 : FVec Ideal S128x128 .bf16) transposes_S128x128_p1_0_S128x128)
      (constant S5000x128 .f32 0x00000000#32) (ix2 p q)
    = Gnn.rowDot (Gnn.row x p) W q := by
  have hd : dot_S5000x128_S128x128_S5000x128_1_0_0_1_n_n = DotDims.plain 5000 128 128 := rfl
  rw [hd]
  refine (PlainDot.matmul_zero_apply 5000 128 128 _ _ (ix2 p q)).trans ?_
  unfold Gnn.rowDot Gnn.row
  refine Finset.sum_congr rfl fun k _ => ?_
  congr 1
  exact transpose_ix2_apply (truncf .bf16 W bitsLt_bf16_f32 : FVec Ideal S128x128 .bf16) transposes_S128x128_p1_0_S128x128 k q

/-- The bias, reshaped to one row and repeated over the rows, read at an entry. -/
theorem bias_apply (b : Vec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans
    (shapeCast_a_1a_apply b shapeCasts_S128_S1x128 0 q)

/-- The first layer's stored block at an entry. -/
theorem pay0_apply (v0 v3 : Vec Ideal S5000x128 .f32) (v5 v7 : Vec Ideal S128x128 .f32) (v11 : Vec Ideal S128 .f32) (j : S5000x128.Idx) :
    k0_pay1 (F := Ideal) v0 v3 v5 v7 v11 j
      = max (Gnn.sageVal (Gnn.row v0 (j 0)) (Gnn.row v3 (j 0)) v5 v11 v7 (j 1)) Gnn.zeroF := by
  obtain ⟨p, q, rfl⟩ : ∃ (p : Fin 5000) (q : Fin 128), j = ix2 p q := ⟨j 0, j 1, eq_ix2 j⟩
  unfold k0_pay1 Gnn.sageVal
  rw [shapeCast_self]
  show max (_ + _ + _) _ = _
  rw [dot_apply, dot_apply, bias_apply]
  rfl

/-- The second layer's stored block at an entry. -/
theorem pay1_apply (v0 v3 : Vec Ideal S5000x128 .f32) (v6 v8 : Vec Ideal S128x128 .f32) (v12 : Vec Ideal S128 .f32) (j : S5000x128.Idx) :
    k1_pay1 (F := Ideal) v0 v3 v6 v8 v12 j
      = Gnn.sageVal (Gnn.row v0 (j 0)) (Gnn.row v3 (j 0)) v6 v12 v8 (j 1) := by
  obtain ⟨p, q, rfl⟩ : ∃ (p : Fin 5000) (q : Fin 128), j = ix2 p q := ⟨j 0, j 1, eq_ix2 j⟩
  unfold k1_pay1 Gnn.sageVal
  rw [shapeCast_self, shapeCast_self]
  show _ + _ + _ = _
  rw [dot_apply, dot_apply, bias_apply]

end Cert.KernelIdeal.Hand

end
-- ==== Proof.Final0.lean ====
/-
  The first SAGE layer's region: its output array after the twenty grid points is the layer's entrywise function (Spec's sageRelu) of the arrays the region finds. Point t writes rows 5000·t … 5000·t + 4999; each of those rows depends on the same rows of the two row-blocked inputs and on the whole weights and bias, so the block written is the block of the whole-array function, and the twenty blocks cover the array.
-/
import proofs.«180107_j64888365907988_1_alg».proof.Proof.Gen.KernelIdeal.Frame
import proofs.«180107_j64888365907988_1_alg».proof.Proof.SagePayload
import proofs.«180107_j64888365907988_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The zero offsets of a whole two-axis block. -/
theorem sage0_off2 : (![0, 0] : Fin 2 → Nat) = fun _ => 0 := funext fun a => by fin_cases a <;> rfl

/-- The zero offset of a whole one-axis block. -/
theorem sage0_off1 : (![0] : Fin 1 → Nat) = fun _ => 0 := funext fun a => by fin_cases a <;> rfl

/-- The block indices at point t: the three row-blocked windows sit at block (t, 0), the weights and the bias at
    block (0, 0) and (0). -/
theorem sage0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, k) of the neighbour-mean block at point t is entry (5000·t + p, k) of the neighbour-mean array. -/
theorem sage0_aggBlock (c : Dev nD) (t : Fin cfg0.N) (x : S5000x128.Idx) (k : S100000x128.Idx)
    (hk0 : (k 0).val = 5000 * t.val + (x 0).val) (hk1 : (k 1).val = (x 1).val) :
    (iblk0 (F := Ideal) V c 0 t : Vec Ideal S5000x128 .f32) x = (V c main_v22 : S100000x128.Idx → Elt Ideal .f32) k := by
  obtain ⟨e0, e1, -⟩ := sage0_idx t
  unfold iblk0
  rw [View.read_apply]
  show V c main_v22 _ = V c main_v22 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- Entry (p, k) of the node-feature block at point t is entry (5000·t + p, k) of the node-feature array. -/
theorem sage0_featBlock (c : Dev nD) (t : Fin cfg0.N) (x : S5000x128.Idx) (k : S100000x128.Idx)
    (hk0 : (k 0).val = 5000 * t.val + (x 0).val) (hk1 : (k 1).val = (x 1).val) :
    (iblk0 (F := Ideal) V c 1 t : Vec Ideal S5000x128 .f32) x = (V c main_arg0 : S100000x128.Idx → Elt Ideal .f32) k := by
  obtain ⟨-, -, e0, e1, -⟩ := sage0_idx t
  unfold iblk0
  rw [View.read_apply]
  show V c main_arg0 _ = V c main_arg0 _
  congr 1
  funext a
  apply Fin.ext
  match a with
  | ⟨0, _⟩ => show win0_1.index t 0 * 5000 + 1 * (x 0).val = (k 0).val; rw [e0, hk0]; omega
  | ⟨1, _⟩ => show win0_1.index t 1 * 128 + 1 * (x 1).val = (k 1).val; rw [e1, hk1]; omega

/-- The neighbour weights' block at every point is the whole weight array. -/
theorem sage0_wlBlock (c : Dev nD) (t : Fin cfg0.N) :
    (iblk0 (F := Ideal) V c 2 t : Vec Ideal S128x128 .f32) = (V c main_arg3 : S128x128.Idx → Elt Ideal .f32) := by
  obtain ⟨-, -, -, -, e0, e1, -⟩ := sage0_idx t
  funext x
  unfold iblk0
  rw [View.read_apply]
  show V c main_arg3 _ = V c main_arg3 _
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The bias block at every point is the whole bias array. -/
theorem sage0_biasBlock (c : Dev nD) (t : Fin cfg0.N) :
    (iblk0 (F := Ideal) V c 3 t : Vec Ideal S128 .f32) = (V c main_arg4 : S128.Idx → Elt Ideal .f32) := by
  obtain ⟨-, -, -, -, -, -, e0, -⟩ := sage0_idx t
  funext x
  unfold iblk0
  rw [View.read_apply]
  show V c main_arg4 _ = V c main_arg4 _
  congr 1
  funext a
  apply Fin.ext
  match a with
  | ⟨0, _⟩ => show win0_3.index t 0 * 128 + 1 * (x 0).val = (x 0).val; rw [e0]; omega

/-- The self weights' block at every point is the whole weight array. -/
theorem sage0_wrBlock (c : Dev nD) (t : Fin cfg0.N) :
    (iblk0 (F := Ideal) V c 4 t : Vec Ideal S128x128 .f32) = (V c main_arg5 : S128x128.Idx → Elt Ideal .f32) := by
  obtain ⟨-, -, -, -, -, -, -, e0, e1, -⟩ := sage0_idx t
  funext x
  unfold iblk0
  rw [View.read_apply]
  show V c main_arg5 _ = V c main_arg5 _
  congr 1
  funext a
  apply Fin.ext
  match a with
  | ⟨0, _⟩ => show win0_4.index t 0 * 128 + 1 * (x 0).val = (x 0).val; rw [e0]; omega
  | ⟨1, _⟩ => show win0_4.index t 1 * 128 + 1 * (x 1).val = (x 1).val; rw [e1]; omega

/-- One entry of the stored block against the whole-array function: when the two row blocks are rows
    5000·tv … 5000·tv + 4999 of the arrays A and X, entry j of the stored block is the layer's entry at the array
    index i = (5000·tv + j 0, j 1), because both read row i 0 of A and of X and the same weights and bias. -/
theorem sage0_entry (x0 x1 : Vec Ideal S5000x128 .f32) (x2 x4 : Vec Ideal S128x128 .f32) (x3 : Vec Ideal S128 .f32)
    (A X : S100000x128.Idx → EReal) (tv : Nat) (j : S5000x128.Idx) (i : S100000x128.Idx)
    (hi0 : (i 0).val = 5000 * tv + (j 0).val) (hi1 : (i 1).val = (j 1).val)
    (h0 : ∀ (x : S5000x128.Idx) (k : S100000x128.Idx), (k 0).val = 5000 * tv + (x 0).val → (k 1).val = (x 1).val → x0 x = A k)
    (h1 : ∀ (x : S5000x128.Idx) (k : S100000x128.Idx), (k 0).val = 5000 * tv + (x 0).val → (k 1).val = (x 1).val → x1 x = X k) :
    k0_pay1 (F := Ideal) x0 x1 x2 x4 x3 j = Gnn.sageRelu A X x2 x3 x4 i := by
  rw [pay0_apply]
  show max (Gnn.sageVal (Gnn.row x0 (j 0)) (Gnn.row x1 (j 0)) x2 x3 x4 (j 1)) Gnn.zeroF
    = max (Gnn.sageVal (Gnn.row A (i 0)) (Gnn.row X (i 0)) x2 x3 x4 (i 1)) Gnn.zeroF
  have r0 : Gnn.row x0 (j 0) = Gnn.row A (i 0) := funext fun k => h0 (ix2 (j 0) k) (ix2 (i 0) k) hi0 rfl
  have r1 : Gnn.row x1 (j 0) = Gnn.row X (i 0) := funext fun k => h1 (ix2 (j 0) k) (ix2 (i 0) k) hi0 rfl
  have q : (j 1 : Fin 128) = (i 1 : Fin 128) := Fin.ext hi1.symm
  rw [r0, r1, q]

/-- What point t writes back is block t of the layer's whole-array function. -/
theorem sage0_flushed (c : Dev nD) (t : Fin cfg0.N) :
    (dat0 (F := Ideal) V c).flushed 5 t = ((cfg0.win 5).blk t).view.read (Elt Ideal)
      (Gnn.sageRelu (V c main_v22) (V c main_arg0) (V c main_arg3) (V c main_arg4) (V c main_arg5)) := by
  show (cfg0.win 5).cut (grid0.coords t) ((dat0 V c).after 5 t) = _
  rw [after0_5]
  unfold out0_5
  rw [View.canon_unit_zero sage0_off2]
  simp only [View.ld_unit_zero (S := S5000x128) sage0_off2, View.ld_unit_zero (S := S128x128) sage0_off2,
    View.ld_unit_zero (S := S128) sage0_off1]
  obtain ⟨-, -, -, -, -, -, -, -, -, e0, e1⟩ := sage0_idx t
  funext j
  rw [View.read_apply]
  show k0_pay1 (F := Ideal) (iblk0 V c 0 t) (iblk0 V c 1 t) (iblk0 V c 2 t) (iblk0 V c 4 t) (iblk0 V c 3 t) j
    = Gnn.sageRelu (V c main_v22) (V c main_arg0) (V c main_arg3) (V c main_arg4) (V c main_arg5) (((cfg0.win 5).blk t).view.emb j)
  rw [sage0_wlBlock V c t, sage0_biasBlock V c t, sage0_wrBlock V c t]
  refine sage0_entry (iblk0 V c 0 t) (iblk0 V c 1 t) (V c main_arg3) (V c main_arg5) (V c main_arg4) (V c main_v22) (V c main_arg0) t.val j
    (((cfg0.win 5).blk t).view.emb j) ?_ ?_ (fun x k hk0 hk1 => sage0_aggBlock V c t x k hk0 hk1)
    (fun x k hk0 hk1 => sage0_featBlock V c t x k hk0 hk1)
  · show win0_5.index t 0 * 5000 + 1 * (j 0).val = 5000 * t.val + (j 0).val
    rw [e0]; omega
  · show win0_5.index t 1 * 128 + 1 * (j 1).val = (j 1).val
    rw [e1]; omega

/-- An index of the output array is in point t's block iff each coordinate is in the block's range on its axis. -/
theorem sage0_memBlock (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Every index (r, k) of the output array lies in the block of point r / 5000, since 5000·(r / 5000) ≤ r < 5000·(r / 5000) + 5000
    and r < 100000 puts r / 5000 below 20; every point writes its block back. -/
theorem sage0_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_5 _, ?_⟩
  rw [sage0_memBlock]
  obtain ⟨-, -, -, -, -, -, -, -, -, e0, e1⟩ := sage0_idx ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-- After region 0 its output array holds the first layer of the arrays it was entered with. -/
theorem final0 (c : Dev nD) :
    (dat0 (F := Ideal) V c).arrAt 5 cfg0.N
      = Gnn.sageRelu (V c main_v22) (V c main_arg0) (V c main_arg3) (V c main_arg4) (V c main_arg5) :=
  (dat0 (F := Ideal) V c).arrAt_eq_of_cover 5
    (Gnn.sageRelu (V c main_v22) (V c main_arg0) (V c main_arg3) (V c main_arg4) (V c main_arg5))
    (fun t _ => sage0_flushed V c t) sage0_cover

end Cert.KernelIdeal.Hand

end
-- ==== Proof.Final1.lean ====
/-
  The second SAGE layer's region: its output array after the twenty grid points is the layer's entrywise function (Spec's sageLin) of the arrays the region finds, block of rows by block of rows.
-/
import proofs.«180107_j64888365907988_1_alg».proof.Proof.Gen.KernelIdeal.Frame
import proofs.«180107_j64888365907988_1_alg».proof.Proof.SagePayload
import proofs.«180107_j64888365907988_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The zero offsets of a whole two-axis block. -/
theorem sage1_off2 : (![0, 0] : Fin 2 → Nat) = fun _ => 0 := funext fun a => by fin_cases a <;> rfl

/-- The zero offset of a whole one-axis block. -/
theorem sage1_off1 : (![0] : Fin 1 → Nat) = fun _ => 0 := funext fun a => by fin_cases a <;> rfl

/-- The block indices at point t: the three row-blocked windows sit at block (t, 0), the weights and the bias at
    block (0, 0) and (0). -/
theorem sage1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, k) of the neighbour-mean block at point t is entry (5000·t + p, k) of the neighbour-mean array. -/
theorem sage1_aggBlock (c : Dev nD) (t : Fin cfg1.N) (x : S5000x128.Idx) (k : S100000x128.Idx)
    (hk0 : (k 0).val = 5000 * t.val + (x 0).val) (hk1 : (k 1).val = (x 1).val) :
    (iblk1 (F := Ideal) V c 0 t : Vec Ideal S5000x128 .f32) x = (V c main_v38 : S100000x128.Idx → Elt Ideal .f32) k := by
  obtain ⟨e0, e1, -⟩ := sage1_idx t
  unfold iblk1
  rw [View.read_apply]
  show V c main_v38 _ = V c main_v38 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- Entry (p, k) of the block of the nodes' own rows (the first layer's output) at point t is entry (5000·t + p, k) of that array. -/
theorem sage1_featBlock (c : Dev nD) (t : Fin cfg1.N) (x : S5000x128.Idx) (k : S100000x128.Idx)
    (hk0 : (k 0).val = 5000 * t.val + (x 0).val) (hk1 : (k 1).val = (x 1).val) :
    (iblk1 (F := Ideal) V c 1 t : Vec Ideal S5000x128 .f32) x = (V c main_v23 : S100000x128.Idx → Elt Ideal .f32) k := by
  obtain ⟨-, -, e0, e1, -⟩ := sage1_idx t
  unfold iblk1
  rw [View.read_apply]
  show V c main_v23 _ = V c main_v23 _
  congr 1
  funext a
  apply Fin.ext
  match a with
  | ⟨0, _⟩ => show win1_1.index t 0 * 5000 + 1 * (x 0).val = (k 0).val; rw [e0, hk0]; omega
  | ⟨1, _⟩ => show win1_1.index t 1 * 128 + 1 * (x 1).val = (k 1).val; rw [e1, hk1]; omega

/-- The neighbour weights' block at every point is the whole weight array. -/
theorem sage1_wlBlock (c : Dev nD) (t : Fin cfg1.N) :
    (iblk1 (F := Ideal) V c 2 t : Vec Ideal S128x128 .f32) = (V c main_arg6 : S128x128.Idx → Elt Ideal .f32) := by
  obtain ⟨-, -, -, -, e0, e1, -⟩ := sage1_idx t
  funext x
  unfold iblk1
  rw [View.read_apply]
  show V c main_arg6 _ = V c main_arg6 _
  congr 1
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- The bias block at every point is the whole bias array. -/
theorem sage1_biasBlock (c : Dev nD) (t : Fin cfg1.N) :
    (iblk1 (F := Ideal) V c 3 t : Vec Ideal S128 .f32) = (V c main_arg7 : S128.Idx → Elt Ideal .f32) := by
  obtain ⟨-, -, -, -, -, -, e0, -⟩ := sage1_idx t
  funext x
  unfold iblk1
  rw [View.read_apply]
  show V c main_arg7 _ = V c main_arg7 _
  congr 1
  funext a
  apply Fin.ext
  match a with
  | ⟨0, _⟩ => show win1_3.index t 0 * 128 + 1 * (x 0).val = (x 0).val; rw [e0]; omega

/-- The self weights' block at every point is the whole weight array. -/
theorem sage1_wrBlock (c : Dev nD) (t : Fin cfg1.N) :
    (iblk1 (F := Ideal) V c 4 t : Vec Ideal S128x128 .f32) = (V c main_arg8 : S128x128.Idx → Elt Ideal .f32) := by
  obtain ⟨-, -, -, -, -, -, -, e0, e1, -⟩ := sage1_idx t
  funext x
  unfold iblk1
  rw [View.read_apply]
  show V c main_arg8 _ = V c main_arg8 _
  congr 1
  funext a
  apply Fin.ext
  match a with
  | ⟨0, _⟩ => show win1_4.index t 0 * 128 + 1 * (x 0).val = (x 0).val; rw [e0]; omega
  | ⟨1, _⟩ => show win1_4.index t 1 * 128 + 1 * (x 1).val = (x 1).val; rw [e1]; omega

/-- One entry of the stored block against the whole-array function: when the two row blocks are rows
    5000·tv … 5000·tv + 4999 of the arrays A and X, entry j of the stored block is the layer's entry at the array
    index i = (5000·tv + j 0, j 1), because both read row i 0 of A and of X and the same weights and bias. -/
theorem sage1_entry (x0 x1 : Vec Ideal S5000x128 .f32) (x2 x4 : Vec Ideal S128x128 .f32) (x3 : Vec Ideal S128 .f32)
    (A X : S100000x128.Idx → EReal) (tv : Nat) (j : S5000x128.Idx) (i : S100000x128.Idx)
    (hi0 : (i 0).val = 5000 * tv + (j 0).val) (hi1 : (i 1).val = (j 1).val)
    (h0 : ∀ (x : S5000x128.Idx) (k : S100000x128.Idx), (k 0).val = 5000 * tv + (x 0).val → (k 1).val = (x 1).val → x0 x = A k)
    (h1 : ∀ (x : S5000x128.Idx) (k : S100000x128.Idx), (k 0).val = 5000 * tv + (x 0).val → (k 1).val = (x 1).val → x1 x = X k) :
    k1_pay1 (F := Ideal) x0 x1 x2 x4 x3 j = Gnn.sageLin A X x2 x3 x4 i := by
  rw [pay1_apply]
  show Gnn.sageVal (Gnn.row x0 (j 0)) (Gnn.row x1 (j 0)) x2 x3 x4 (j 1)
    = Gnn.sageVal (Gnn.row A (i 0)) (Gnn.row X (i 0)) x2 x3 x4 (i 1)
  have r0 : Gnn.row x0 (j 0) = Gnn.row A (i 0) := funext fun k => h0 (ix2 (j 0) k) (ix2 (i 0) k) hi0 rfl
  have r1 : Gnn.row x1 (j 0) = Gnn.row X (i 0) := funext fun k => h1 (ix2 (j 0) k) (ix2 (i 0) k) hi0 rfl
  have q : (j 1 : Fin 128) = (i 1 : Fin 128) := Fin.ext hi1.symm
  rw [r0, r1, q]

/-- What point t writes back is block t of the layer's whole-array function. -/
theorem sage1_flushed (c : Dev nD) (t : Fin cfg1.N) :
    (dat1 (F := Ideal) V c).flushed 5 t = ((cfg1.win 5).blk t).view.read (Elt Ideal)
      (Gnn.sageLin (V c main_v38) (V c main_v23) (V c main_arg6) (V c main_arg7) (V c main_arg8)) := by
  show (cfg1.win 5).cut (grid1.coords t) ((dat1 V c).after 5 t) = _
  rw [after1_5]
  unfold out1_5
  rw [View.canon_unit_zero sage1_off2]
  simp only [View.ld_unit_zero (S := S5000x128) sage1_off2, View.ld_unit_zero (S := S128x128) sage1_off2,
    View.ld_unit_zero (S := S128) sage1_off1]
  obtain ⟨-, -, -, -, -, -, -, -, -, e0, e1⟩ := sage1_idx t
  funext j
  rw [View.read_apply]
  show k1_pay1 (F := Ideal) (iblk1 V c 0 t) (iblk1 V c 1 t) (iblk1 V c 2 t) (iblk1 V c 4 t) (iblk1 V c 3 t) j
    = Gnn.sageLin (V c main_v38) (V c main_v23) (V c main_arg6) (V c main_arg7) (V c main_arg8) (((cfg1.win 5).blk t).view.emb j)
  rw [sage1_wlBlock V c t, sage1_biasBlock V c t, sage1_wrBlock V c t]
  refine sage1_entry (iblk1 V c 0 t) (iblk1 V c 1 t) (V c main_arg6) (V c main_arg8) (V c main_arg7) (V c main_v38) (V c main_v23) t.val j
    (((cfg1.win 5).blk t).view.emb j) ?_ ?_ (fun x k hk0 hk1 => sage1_aggBlock V c t x k hk0 hk1)
    (fun x k hk0 hk1 => sage1_featBlock V c t x k hk0 hk1)
  · show win1_5.index t 0 * 5000 + 1 * (j 0).val = 5000 * t.val + (j 0).val
    rw [e0]; omega
  · show win1_5.index t 1 * 128 + 1 * (j 1).val = (j 1).val
    rw [e1]; omega

/-- An index of the output array is in point t's block iff each coordinate is in the block's range on its axis. -/
theorem sage1_memBlock (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- Every index (r, k) of the output array lies in the block of point r / 5000, since 5000·(r / 5000) ≤ r < 5000·(r / 5000) + 5000
    and r < 100000 puts r / 5000 below 20; every point writes its block back. -/
theorem sage1_cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [sage1_memBlock]
  obtain ⟨-, -, -, -, -, -, -, -, -, e0, e1⟩ := sage1_idx ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- After region 1 its output array holds the second layer of the arrays it was entered with. -/
theorem final1 (c : Dev nD) :
    (dat1 (F := Ideal) V c).arrAt 5 cfg1.N
      = Gnn.sageLin (V c main_v38) (V c main_v23) (V c main_arg6) (V c main_arg7) (V c main_arg8) :=
  (dat1 (F := Ideal) V c).arrAt_eq_of_cover 5
    (Gnn.sageLin (V c main_v38) (V c main_v23) (V c main_arg6) (V c main_arg7) (V c main_arg8))
    (fun t _ => sage1_flushed V c t) sage1_cover

end Cert.KernelIdeal.Hand

end
-- ==== Proof.MlpPayload.lean ====
/-
  The decoder kernel's body, read at one entry of the block it stores: entry (p, q) is the decoder's value (Spec's mlpVal)
  of row p of the two input blocks.
-/
import proofs.«180107_j64888365907988_1_alg».proof.Proof.Gen.KernelIdeal.Skeleton
import proofs.«180107_j64888365907988_1_alg».proof.Proof.Spec
import proofs.«180107_j64888365907988_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- One affine stage at an entry: the product of an M×K array `h` with the transpose of an N×K weight `W` into a zero
    accumulator, plus the bias `b` viewed as one row and repeated over the M rows, is at (p, q) the sum over k of
    `h (p, k) · W (q, k)` plus `b q`. -/
theorem stage_apply (M K N : Nat) {φ₁ φ₂ : FTy} (h : FVec Ideal ⟨2, ![M, K]⟩ φ₁) (W : FVec Ideal ⟨2, ![N, K]⟩ φ₂)
    (b : FVec Ideal ⟨1, ![N]⟩ .f32)
    (hT : (⟨2, ![N, K]⟩ : Shape).Transposes [1, 0] ⟨2, ![K, N]⟩)
    (hC : (⟨1, ![N]⟩ : Shape).ShapeCasts ⟨2, ![1, N]⟩) (hB : (⟨2, ![1, N]⟩ : Shape).Broadcasts ⟨2, ![M, N]⟩)
    (p : Fin M) (q : Fin N) :
    addf (FloatOps.matmul (DotDims.plain M K N) none h (transpose ⟨2, ![K, N]⟩ [1, 0] W hT) (constant ⟨2, ![M, N]⟩ .f32 0x00000000#32))
        (broadcastTo ⟨2, ![M, N]⟩ (shapeCast ⟨2, ![1, N]⟩ b hC) hB) (ix2 p q)
      = Gnn.rowDot (fun k => h (ix2 p k)) W q + b (ix1 q) := by
  rw [addf_apply, PlainDot.matmul_zero_apply, broadcastTo_1b_ab_apply, shapeCast_a_1a_apply]
  unfold Gnn.rowDot
  refine congrArg (· + b (ix1 q)) (Finset.sum_congr rfl fun k _ => ?_)
  -- the transposed weight at (k, q) is the weight at (q, k)
  rw [transpose_ix2_apply]
  rfl

/-- The decoder's stored block at an entry. -/
theorem pay2_apply (v0 v2 : Vec Ideal S5000x128 .f32) (v6 : Vec Ideal S128x128 .f32) (v10 : Vec Ideal S128 .f32) (v17 : Vec Ideal S64x128 .f32)
    (v21 : Vec Ideal S64 .f32) (v28 : Vec Ideal S1x64 .f32) (v32 : Vec Ideal S1 .f32) (j : S5000x1.Idx) :
    k2_pay1 (F := Ideal) v0 v2 v6 v10 v17 v21 v28 v32 j
      = Gnn.mlpVal (Gnn.row v0 (j 0)) (Gnn.row v2 (j 0)) v6 v10 v17 v21 v28 v32 (j 1) := by
  -- the entry by its two coordinates
  obtain ⟨p, q, rfl⟩ : ∃ (p : Fin 5000) (q : Fin 1), j = ix2 p q := ⟨j 0, j 1, eq_ix2 j⟩
  show k2_pay1 (F := Ideal) v0 v2 v6 v10 v17 v21 v28 v32 (ix2 p q)
      = Gnn.mlpVal (Gnn.row v0 p) (Gnn.row v2 p) v6 v10 v17 v21 v28 v32 q
  unfold k2_pay1 Gnn.mlpVal Gnn.hid2 Gnn.hid1
  -- third stage (64 → 1): its left operand at (p, k) is the second hidden row at k
  refine (stage_apply 5000 64 1 _ _ v32 _ _ _ p q).trans ?_
  refine congrArg (· + v32 (ix1 q)) ?_
  refine congrArg (fun f => Gnn.rowDot f v28 q) (funext fun k => ?_)
  rw [truncf_apply, maximumf_apply, broadcast_apply]
  refine congrArg₂ max ?_ rfl
  -- second stage (128 → 64): its left operand at (p, k') is the first hidden row at k'
  refine (stage_apply 5000 128 64 _ _ v21 _ _ _ p k).trans ?_
  refine congrArg (· + v21 (ix1 k)) ?_
  refine congrArg (fun f => Gnn.rowDot f v17 k) (funext fun k' => ?_)
  rw [truncf_apply, maximumf_apply, broadcast_apply]
  refine congrArg₂ max ?_ rfl
  -- first stage (128 → 128): its left operand at (p, k'') is the product of the two input rows at k''
  refine (stage_apply 5000 128 128 _ _ v10 _ _ _ p k').trans ?_
  refine congrArg (· + v10 (ix1 k')) ?_
  refine congrArg (fun f => Gnn.rowDot f v6 k') (funext fun k'' => ?_)
  rw [truncf_apply, mulf_apply, shapeCast_self, shapeCast_self]
  rfl

end Cert.KernelIdeal.Hand

end
-- ==== Proof.Final2.lean ====
/-
  The decoder's region: its output array after the hundred grid points is the decoder's entrywise function (Spec's mlp) of the arrays the region finds. Point t writes rows 5000·t … 5000·t + 4999 of the one-column result from the same rows of the two gathered embedding arrays.
-/
import proofs.«180107_j64888365907988_1_alg».proof.Proof.Gen.KernelIdeal.Frame
import proofs.«180107_j64888365907988_1_alg».proof.Proof.MlpPayload
import proofs.«180107_j64888365907988_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The zero offsets of a whole two-axis block, as the constant function. -/
theorem mlp_zeroOff2 : (![0, 0] : Fin 2 → Nat) = fun _ => 0 := funext fun a => by fin_cases a <;> rfl

/-- The zero offset of a whole one-axis block, as the constant function. -/
theorem mlp_zeroOff1 : (![0] : Fin 1 → Nat) = fun _ => 0 := funext fun a => by fin_cases a <;> rfl

/-- The decoder's index maps over its grid: at point t the two embedding windows and the output window sit at block
    (t, 0); the six parameter windows sit at block 0 on every axis. -/
theorem mlp_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

/-- The first embedding window's block at point t is rows 5000·t … 5000·t + 4999 of its array. -/
theorem mlp_z0blk_apply (c : Dev nD) (t : Fin cfg2.N) (x : S5000x128.Idx) (k : S500000x128.Idx)
    (hk0 : (k 0).val = 5000 * t.val + (x 0).val) (hk1 : (k 1).val = (x 1).val) :
    (iblk2 (F := Ideal) V c 0 t : Vec Ideal S5000x128 .f32) x = (V c main_v50 : S500000x128.Idx → Elt Ideal .f32) k := by
  obtain ⟨e0, e1, -⟩ := mlp_idx_facts t
  unfold iblk2
  rw [View.read_apply]
  show V c main_v50 _ = V c main_v50 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The second embedding window's block at point t is rows 5000·t … 5000·t + 4999 of its array. -/
theorem mlp_z1blk_apply (c : Dev nD) (t : Fin cfg2.N) (x : S5000x128.Idx) (k : S500000x128.Idx)
    (hk0 : (k 0).val = 5000 * t.val + (x 0).val) (hk1 : (k 1).val = (x 1).val) :
    (iblk2 (F := Ideal) V c 1 t : Vec Ideal S5000x128 .f32) x = (V c main_v57 : S500000x128.Idx → Elt Ideal .f32) k := by
  obtain ⟨-, -, e0, e1, -⟩ := mlp_idx_facts t
  unfold iblk2
  rw [View.read_apply]
  show V c main_v57 _ = V c main_v57 _
  congr 1
  funext a
  apply Fin.ext
  match a with
  | ⟨0, _⟩ => show win2_1.index t 0 * 5000 + 1 * (x 0).val = (k 0).val; rw [e0, hk0]; omega
  | ⟨1, _⟩ => show win2_1.index t 1 * 128 + 1 * (x 1).val = (k 1).val; rw [e1, hk1]; omega

/-- The first weight matrix's window holds the whole matrix at every point. -/
theorem mlp_w1blk_eq (c : Dev nD) (t : Fin cfg2.N) :
    (iblk2 (F := Ideal) V c 2 t : Vec Ideal S128x128 .f32) = (V c main_arg9 : S128x128.Idx → Elt Ideal .f32) := by
  obtain ⟨-, -, -, -, e0, e1, -⟩ := mlp_idx_facts t
  funext x
  unfold iblk2
  rw [View.read_apply]
  show V c main_arg9 _ = V c main_arg9 _
  congr 1
  funext a
  apply Fin.ext
  match a with
  | ⟨0, _⟩ => show win2_2.index t 0 * 128 + 1 * (x 0).val = (x 0).val; rw [e0]; omega
  | ⟨1, _⟩ => show win2_2.index t 1 * 128 + 1 * (x 1).val = (x 1).val; rw [e1]; omega

/-- The first bias's window holds the whole vector at every point. -/
theorem mlp_b1blk_eq (c : Dev nD) (t : Fin cfg2.N) :
    (iblk2 (F := Ideal) V c 3 t : Vec Ideal S128 .f32) = (V c main_arg10 : S128.Idx → Elt Ideal .f32) := by
  obtain ⟨-, -, -, -, -, -, e0, -⟩ := mlp_idx_facts t
  funext x
  unfold iblk2
  rw [View.read_apply]
  show V c main_arg10 _ = V c main_arg10 _
  congr 1
  funext a
  apply Fin.ext
  match a with
  | ⟨0, _⟩ => show win2_3.index t 0 * 128 + 1 * (x 0).val = (x 0).val; rw [e0]; omega

/-- The second weight matrix's window holds the whole matrix at every point. -/
theorem mlp_w2blk_eq (c : Dev nD) (t : Fin cfg2.N) :
    (iblk2 (F := Ideal) V c 4 t : Vec Ideal S64x128 .f32) = (V c main_arg11 : S64x128.Idx → Elt Ideal .f32) := by
  obtain ⟨-, -, -, -, -, -, -, e0, e1, -⟩ := mlp_idx_facts t
  funext x
  unfold iblk2
  rw [View.read_apply]
  show V c main_arg11 _ = V c main_arg11 _
  congr 1
  funext a
  apply Fin.ext
  match a with
  | ⟨0, _⟩ => show win2_4.index t 0 * 64 + 1 * (x 0).val = (x 0).val; rw [e0]; omega
  | ⟨1, _⟩ => show win2_4.index t 1 * 128 + 1 * (x 1).val = (x 1).val; rw [e1]; omega

/-- The second bias's window holds the whole vector at every point. -/
theorem mlp_b2blk_eq (c : Dev nD) (t : Fin cfg2.N) :
    (iblk2 (F := Ideal) V c 5 t : Vec Ideal S64 .f32) = (V c main_arg12 : S64.Idx → Elt Ideal .f32) := by
  obtain ⟨-, -, -, -, -, -, -, -, -, e0, -⟩ := mlp_idx_facts t
  funext x
  unfold iblk2
  rw [View.read_apply]
  show V c main_arg12 _ = V c main_arg12 _
  congr 1
  funext a
  apply Fin.ext
  match a with
  | ⟨0, _⟩ => show win2_5.index t 0 * 64 + 1 * (x 0).val = (x 0).val; rw [e0]; omega

/-- The third weight matrix's window holds the whole matrix at every point. -/
theorem mlp_w3blk_eq (c : Dev nD) (t : Fin cfg2.N) :
    (iblk2 (F := Ideal) V c 6 t : Vec Ideal S1x64 .f32) = (V c main_arg13 : S1x64.Idx → Elt Ideal .f32) := by
  obtain ⟨-, -, -, -, -, -, -, -, -, -, e0, e1, -⟩ := mlp_idx_facts t
  funext x
  unfold iblk2
  rw [View.read_apply]
  show V c main_arg13 _ = V c main_arg13 _
  congr 1
  funext a
  apply Fin.ext
  match a with
  | ⟨0, _⟩ => show win2_6.index t 0 * 1 + 1 * (x 0).val = (x 0).val; rw [e0]; omega
  | ⟨1, _⟩ => show win2_6.index t 1 * 64 + 1 * (x 1).val = (x 1).val; rw [e1]; omega

/-- The third bias's window holds the whole vector at every point. -/
theorem mlp_b3blk_eq (c : Dev nD) (t : Fin cfg2.N) :
    (iblk2 (F := Ideal) V c 7 t : Vec Ideal S1 .f32) = (V c main_arg14 : S1.Idx → Elt Ideal .f32) := by
  obtain ⟨-, -, -, -, -, -, -, -, -, -, -, -, e0, -⟩ := mlp_idx_facts t
  funext x
  unfold iblk2
  rw [View.read_apply]
  show V c main_arg14 _ = V c main_arg14 _
  congr 1
  funext a
  apply Fin.ext
  match a with
  | ⟨0, _⟩ => show win2_7.index t 0 * 1 + 1 * (x 0).val = (x 0).val; rw [e0]; omega

/-- The decoder's value at a pair depends on the pair's two embedding rows and the parameters only: equal rows and
    equal parameters give equal values (the one column has one index). -/
theorem mlpVal_of_rows (z0 z1 : S500000x128.Idx → EReal) (x0 x1 : S5000x128.Idx → EReal)
    (W1 w1 : S128x128.Idx → EReal) (b1 v1 : S128.Idx → EReal) (W2 w2 : S64x128.Idx → EReal) (b2 v2 : S64.Idx → EReal)
    (W3 w3 : S1x64.Idx → EReal) (b3 v3 : S1.Idx → EReal) (p : Fin 5000) (r : Fin 500000) (q q' : Fin 1)
    (h0 : ∀ k : Fin 128, x0 (ix2 p k) = z0 (ix2 r k)) (h1 : ∀ k : Fin 128, x1 (ix2 p k) = z1 (ix2 r k))
    (hw1 : w1 = W1) (hv1 : v1 = b1) (hw2 : w2 = W2) (hv2 : v2 = b2) (hw3 : w3 = W3) (hv3 : v3 = b3) :
    Gnn.mlpVal (Gnn.row x0 p) (Gnn.row x1 p) w1 v1 w2 v2 w3 v3 q
      = Gnn.mlpVal (Gnn.row z0 r) (Gnn.row z1 r) W1 b1 W2 b2 W3 b3 q' := by
  subst hw1 hv1 hw2 hv2 hw3 hv3
  have e0 : Gnn.row x0 p = Gnn.row z0 r := funext h0
  have e1 : Gnn.row x1 p = Gnn.row z1 r := funext h1
  rw [e0, e1, Subsingleton.elim q q']

/-- What point t writes back is its block of the decoder's function of the arrays the region was entered with. -/
theorem mlp_flushed_eq (c : Dev nD) (t : Fin cfg2.N) :
    (dat2 (F := Ideal) V c).flushed 8 t
      = ((cfg2.win 8).blk t).view.read (Elt Ideal)
          (Gnn.mlp (V c main_v50) (V c main_v57) (V c main_arg9) (V c main_arg10) (V c main_arg11) (V c main_arg12) (V c main_arg13) (V c main_arg14)) := by
  show (cfg2.win 8).cut (grid2.coords t) ((dat2 (F := Ideal) V c).after 8 t) = _
  rw [after2_8]
  unfold out2_8
  rw [View.canon_unit_zero mlp_zeroOff2]
  simp only [View.ld_unit_zero (S := S5000x128) mlp_zeroOff2, View.ld_unit_zero (S := S128x128) mlp_zeroOff2,
    View.ld_unit_zero (S := S128) mlp_zeroOff1, View.ld_unit_zero (S := S64x128) mlp_zeroOff2, View.ld_unit_zero (S := S64) mlp_zeroOff1,
    View.ld_unit_zero (S := S1x64) mlp_zeroOff2, View.ld_unit_zero (S := S1) mlp_zeroOff1]
  obtain ⟨-, -, -, -, -, -, -, -, -, -, -, -, -, e0, e1⟩ := mlp_idx_facts t
  funext j
  show k2_pay1 (F := Ideal) (iblk2 V c 0 t) (iblk2 V c 1 t) (iblk2 V c 2 t) (iblk2 V c 3 t) (iblk2 V c 4 t) (iblk2 V c 5 t) (iblk2 V c 6 t) (iblk2 V c 7 t) j
    = Gnn.mlpVal (Gnn.row (V c main_v50) ((((cfg2.win 8).blk t).view.emb j) 0)) (Gnn.row (V c main_v57) ((((cfg2.win 8).blk t).view.emb j) 0))
        (V c main_arg9) (V c main_arg10) (V c main_arg11) (V c main_arg12) (V c main_arg13) (V c main_arg14) ((((cfg2.win 8).blk t).view.emb j) 1)
  refine (pay2_apply (iblk2 V c 0 t) (iblk2 V c 1 t) (iblk2 V c 2 t) (iblk2 V c 3 t) (iblk2 V c 4 t) (iblk2 V c 5 t) (iblk2 V c 6 t) (iblk2 V c 7 t) j).trans ?_
  have hr : ((((cfg2.win 8).blk t).view.emb j) 0).val = 5000 * t.val + (j 0).val := by
    show win2_8.index t 0 * 5000 + 1 * (j 0).val = _
    rw [e0]; omega
  refine mlpVal_of_rows (V c main_v50) (V c main_v57) (iblk2 V c 0 t) (iblk2 V c 1 t) (V c main_arg9) (iblk2 V c 2 t) (V c main_arg10) (iblk2 V c 3 t)
    (V c main_arg11) (iblk2 V c 4 t) (V c main_arg12) (iblk2 V c 5 t) (V c main_arg13) (iblk2 V c 6 t) (V c main_arg14) (iblk2 V c 7 t)
    (j 0) ((((cfg2.win 8).blk t).view.emb j) 0) (j 1) ((((cfg2.win 8).blk t).view.emb j) 1)
    (fun k => mlp_z0blk_apply V c t _ _ hr rfl) (fun k => mlp_z1blk_apply V c t _ _ hr rfl)
    (mlp_w1blk_eq V c t) (mlp_b1blk_eq V c t) (mlp_w2blk_eq V c t) (mlp_b2blk_eq V c t) (mlp_w3blk_eq V c t) (mlp_b3blk_eq V c t)

/-- An index of the output array is in point t's block iff each coordinate is in the block's range on its axis. -/
theorem mlp_mem_blk (t : Fin cfg2.N) (i : S500000x1.Idx) :
    i ∈ ((cfg2.win 8).blk t).view.set ↔ ∀ a : Fin 2, win2_8.index t a * S5000x1.size a ≤ (i a).val ∧ (i a).val < win2_8.index t a * S5000x1.size a + S5000x1.size a := by
  show i ∈ ((View.whole main_v58).slice (win2_8.rect t)).set ↔ _
  rw [View.set_slice_whole, Rect.mem_set_unit]
  exact Iff.rfl

/-- Row r of the output lies in the block of point r / 5000, and every point writes back: the blocks cover the array. -/
theorem mlp_cover (i : S500000x1.Idx) :
    ∃ t : Fin cfg2.N, (cfg2.win 8).flush t = true ∧ i ∈ ((cfg2.win 8).blk t).view.set := by
  have hi0 : (i 0).val < 500000 := (i 0).isLt
  have hi1 : (i 1).val < 1 := (i 1).isLt
  have hN : grid2.N = 100 := N_2
  have ht : (i 0).val / 5000 < cfg2.N := by show _ < grid2.N; rw [hN]; omega
  obtain ⟨-, -, -, -, -, -, -, -, -, -, -, -, -, e0, e1⟩ := mlp_idx_facts ⟨(i 0).val / 5000, ht⟩
  refine ⟨⟨(i 0).val / 5000, ht⟩, flush2_8 _, ?_⟩
  rw [mlp_mem_blk]
  intro a
  match a with
  | ⟨0, _⟩ =>
    show win2_8.index ⟨(i 0).val / 5000, ht⟩ (0 : Fin 2) * 5000 ≤ (i 0).val ∧ (i 0).val < win2_8.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_8.index ⟨(i 0).val / 5000, ht⟩ (1 : Fin 2) * 1 ≤ (i 1).val ∧ (i 1).val < win2_8.index ⟨(i 0).val / 5000, ht⟩ (1 : Fin 2) * 1 + 1
    rw [e1]; omega

/-- After region 2 its output array holds the decoder's scores of the arrays it was entered with. -/
theorem final2 (c : Dev nD) :
    (dat2 (F := Ideal) V c).arrAt 8 cfg2.N
      = Gnn.mlp (V c main_v50) (V c main_v57) (V c main_arg9) (V c main_arg10) (V c main_arg11) (V c main_arg12) (V c main_arg13) (V c main_arg14) :=
  (dat2 (F := Ideal) V c).arrAt_eq_of_cover 8
    (Gnn.mlp (V c main_v50) (V c main_v57) (V c main_arg9) (V c main_arg10) (V c main_arg11) (V c main_arg12) (V c main_arg13) (V c main_arg14))
    (fun t _ => mlp_flushed_eq V c t) mlp_cover

end Cert.KernelIdeal.Hand

end
-- ==== Proof.HostFns.lean ====
/-
  The graph network as one function of its arguments, written over the host's own operations where the two programs use the
  same ones (the edge list's two rows, negative indices wrapped, the gather of source rows, the scatter-add into destination
  rows, the degree count and the division by its maximum with one, the two gathers of pair rows) and over the entrywise
  description of the dense stages (Spec) where they differ.
-/
import proofs.«180107_j64888365907988_1_alg».proof.ReferenceIdeal
import proofs.«180107_j64888365907988_1_alg».proof.Proof.Gen.ReferenceIdeal
import proofs.«180107_j64888365907988_1_alg».proof.Proof.Spec

noncomputable section

namespace Cert.ReferenceIdeal.Hand

open Cert.ReferenceIdeal Cert.ReferenceIdeal.Gen Idealize.ShloMosaic

abbrev Edges := IVec S2x1600000 32
abbrev Pairs := IVec S500000x2 32
abbrev Nodes := FVec Ideal S100000x128 .f32
abbrev Mat128 := FVec Ideal S128x128 .f32
abbrev Vec128 := FVec Ideal S128 .f32

/-- The edges' source nodes: row 0 of the edge list. -/
def srcOf (ei : Edges) : IVec S1600000 32 :=
  shapeCast _ (extractStridedSlice S1x1600000 ![0, 0] ei slices_S2x1600000_S1x1600000_0_0) shapeCasts_S1x1600000_S1600000

/-- The edges' destination nodes: row 1 of the edge list. -/
def dstOf (ei : Edges) : IVec S1600000 32 :=
  shapeCast _ (extractStridedSlice S1x1600000 ![1, 0] ei slices_S2x1600000_S1x1600000_1_0) shapeCasts_S1x1600000_S1600000

/-- A negative node index counts from the end. -/
def wrapE (s : IVec S1600000 32) : IVec S1600000 32 :=
  select (cmpi .slt s (broadcastInDim S1600000 ![] bcast_S_S1600000 (constantI S_ 32 0#32))) (addi s (broadcastInDim S1600000 ![] bcast_S_S1600000 (constantI S_ 32 100000#32))) s

/-- Each node's number of incoming edges. -/
def cntOf (ei : Edges) : FVec Ideal S100000 .f32 :=
  Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (dstOf ei)) (broadcastInDim S1600000 ![] bcast_S_S1600000 (constant (F := Ideal) S_ .f32 0x3F800000#32))

/-- The mean of the features `y` over each node's incoming edges (the sum of source rows divided by the larger of the count and one). -/
def aggr (y : Nodes) (ei : Edges) : Nodes :=
  Host.divf (F := Ideal) (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (dstOf ei)) (Host.gather gather_S100000x128_S1600000x1_S1600000x128_1_0_n_n_0_1_1128 y (broadcastInDim S1600000x1 ![0] bcast_S1600000_S1600000x1_0 (wrapE (srcOf ei))))) (broadcastInDim S100000x128 ![0, 1] bcast_S100000x1_S100000x128_0_1 (broadcastInDim S100000x1 ![0] bcast_S100000_S100000x1_0 (maximumf (F := Ideal) (cntOf ei) (broadcastInDim S100000 ![] bcast_S_S100000 (constant (F := Ideal) S_ .f32 0x3F800000#32)))))

/-- A negative node index of a pair counts from the end. -/
def wrapP (s : IVec S500000 32) : IVec S500000 32 :=
  select (cmpi .slt s (broadcastInDim S500000 ![] bcast_S_S500000 (constantI S_ 32 0#32))) (addi s (broadcastInDim S500000 ![] bcast_S_S500000 (constantI S_ 32 100000#32))) s

/-- The embedding rows of the pairs' first nodes. -/
def pick0 (z : Nodes) (ep : Pairs) : FVec Ideal S500000x128 .f32 :=
  Host.gather gather_S100000x128_S500000x1_S500000x128_1_0_n_n_0_1_1128 z (broadcastInDim S500000x1 ![0] bcast_S500000_S500000x1_0 (wrapP (shapeCast _ (extractStridedSlice S500000x1 ![0, 0] ep slices_S500000x2_S500000x1_0_0) shapeCasts_S500000x1_S500000)))

/-- The embedding rows of the pairs' second nodes. -/
def pick1 (z : Nodes) (ep : Pairs) : FVec Ideal S500000x128 .f32 :=
  Host.gather gather_S100000x128_S500000x1_S500000x128_1_0_n_n_0_1_1128 z (broadcastInDim S500000x1 ![0] bcast_S500000_S500000x1_0 (wrapP (shapeCast _ (extractStridedSlice S500000x1 ![0, 1] ep slices_S500000x2_S500000x1_0_1) shapeCasts_S500000x1_S500000)))

/-- The hidden node features: the first layer on the input features and their neighbour means. -/
def hidden (x : Nodes) (ei : Edges) (W1l : Mat128) (b1l : Vec128) (W1r : Mat128) : Nodes :=
  Gnn.sageRelu (aggr x ei) x W1l b1l W1r

/-- The node embeddings: the second layer on the hidden features and their neighbour means. -/
def embed (x : Nodes) (ei : Edges) (W1l : Mat128) (b1l : Vec128) (W1r : Mat128) (W2l : Mat128) (b2l : Vec128) (W2r : Mat128) : Nodes :=
  Gnn.sageLin (aggr (hidden x ei W1l b1l W1r) ei) (hidden x ei W1l b1l W1r) W2l b2l W2r

/-- The network's result: the decoder's score of every pair. -/
def net (x : Nodes) (ei : Edges) (ep : Pairs) (W1l : Mat128) (b1l : Vec128) (W1r : Mat128) (W2l : Mat128) (b2l : Vec128) (W2r : Mat128)
    (Wm1 : Mat128) (bm1 : Vec128) (Wm2 : FVec Ideal S64x128 .f32) (bm2 : FVec Ideal S64 .f32)
    (Wm3 : FVec Ideal S1x64 .f32) (bm3 : FVec Ideal S1 .f32) : FVec Ideal S500000 .f32 :=
  shapeCast S500000 (Gnn.mlp (pick0 (embed x ei W1l b1l W1r W2l b2l W2r) ep) (pick1 (embed x ei W1l b1l W1r W2l b2l W2r) ep) Wm1 bm1 Wm2 bm2 Wm3 bm3 : FVec Ideal S500000x1 .f32) shapeCasts_S500000x1_S500000

end Cert.ReferenceIdeal.Hand

end
-- ==== Proof.Chain.lean ====
/-
  The kernel program's result buffer, followed back through its seven stretches: the last reshape reads the decoder region's
  output array, which is the decoder of the two gathered embedding arrays; those are gathers of the second layer region's
  output array, which is the second layer of the hidden features and their neighbour means; the hidden features are the first
  layer region's output array, the first layer of the input features and their neighbour means. Every host stretch is read
  operation by operation, every region through its output array's closed form, and a buffer a stretch or region does not
  write keeps what it held. The composed value is the network function of the arguments.
-/
import proofs.«180107_j64888365907988_1_alg».proof.Proof.Gen.KernelIdeal.Frame
import proofs.«180107_j64888365907988_1_alg».proof.Proof.Final0
import proofs.«180107_j64888365907988_1_alg».proof.Proof.Final1
import proofs.«180107_j64888365907988_1_alg».proof.Proof.Final2
import proofs.«180107_j64888365907988_1_alg».proof.Proof.HostFns
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

open Cert.ReferenceIdeal.Hand (srcOf dstOf cntOf aggr hidden embed net pick0 pick1 wrapE wrapP)

/-! ## Before the first region -/

theorem W1_arg0 : W1 m ρ c (Proc.devRef .tc main_arg0) = m ((c : Thread nD τ).loc main_arg0) := by
  dsimp only [W1, hostOps0]; after_results_simp
theorem W1_arg3 : W1 m ρ c (Proc.devRef .tc main_arg3) = m ((c : Thread nD τ).loc main_arg3) := by
  dsimp only [W1, hostOps0]; after_results_simp
theorem W1_arg4 : W1 m ρ c (Proc.devRef .tc main_arg4) = m ((c : Thread nD τ).loc main_arg4) := by
  dsimp only [W1, hostOps0]; after_results_simp
theorem W1_arg5 : W1 m ρ c (Proc.devRef .tc main_arg5) = m ((c : Thread nD τ).loc main_arg5) := by
  dsimp only [W1, hostOps0]; after_results_simp

/-- The edges' sources, destinations and the degree count, as the first stretch leaves them. -/
theorem W1_v1 : W1 m ρ c (Proc.devRef .tc main_v1) = srcOf (m ((c : Thread nD τ).loc main_arg1)) := by
  dsimp only [W1, hostOps0]; after_results_simp; rfl
theorem W1_v3 : W1 m ρ c (Proc.devRef .tc main_v3) = dstOf (m ((c : Thread nD τ).loc main_arg1)) := by
  dsimp only [W1, hostOps0]; after_results_simp; rfl
theorem W1_v7 : W1 m ρ c (Proc.devRef .tc main_v7) = cntOf (m ((c : Thread nD τ).loc main_arg1)) := by
  dsimp only [W1, hostOps0]; after_results_simp; rfl

/-- The neighbour means of the input features. -/
theorem W1_v22 : W1 m ρ c (Proc.devRef .tc main_v22)
    = aggr (m ((c : Thread nD τ).loc main_arg0)) (m ((c : Thread nD τ).loc main_arg1)) := by
  dsimp only [W1, hostOps0]; after_results_simp; rfl

/-! ## The first layer's region, and what it leaves alone -/

/-- The hidden features: region 0's output array. -/
theorem W2_v23 : W2 m ρ c (Proc.devRef .tc main_v23) = hidden (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ?_
  rw [final0]
  show Gnn.sageRelu (W1 m ρ c (Proc.devRef .tc main_v22)) (W1 m ρ c (Proc.devRef .tc main_arg0)) (W1 m ρ c (Proc.devRef .tc main_arg3))
    (W1 m ρ c (Proc.devRef .tc main_arg4)) (W1 m ρ c (Proc.devRef .tc main_arg5)) = _
  rw [W1_v22, W1_arg0, W1_arg3, W1_arg4, W1_arg5]
  rfl

theorem W2_v1 : W2 m ρ c (Proc.devRef .tc main_v1) = srcOf (m ((c : Thread nD τ).loc main_arg1)) :=
  (W2_of_ne m ρ c main_v1 (by decide)).trans (W1_v1 m ρ c)
theorem W2_v3 : W2 m ρ c (Proc.devRef .tc main_v3) = dstOf (m ((c : Thread nD τ).loc main_arg1)) :=
  (W2_of_ne m ρ c main_v3 (by decide)).trans (W1_v3 m ρ c)
theorem W2_v7 : W2 m ρ c (Proc.devRef .tc main_v7) = cntOf (m ((c : Thread nD τ).loc main_arg1)) :=
  (W2_of_ne m ρ c main_v7 (by decide)).trans (W1_v7 m ρ c)

/-- An argument no stretch and no region writes holds its launch contents at every boundary. -/
theorem W2_arg6 : W2 m ρ c (Proc.devRef .tc main_arg6) = m ((c : Thread nD τ).loc main_arg6) :=
  (W2_of_ne m ρ c main_arg6 (by decide)).trans (by dsimp only [W1, hostOps0]; after_results_simp)
theorem W2_arg7 : W2 m ρ c (Proc.devRef .tc main_arg7) = m ((c : Thread nD τ).loc main_arg7) :=
  (W2_of_ne m ρ c main_arg7 (by decide)).trans (by dsimp only [W1, hostOps0]; after_results_simp)
theorem W2_arg8 : W2 m ρ c (Proc.devRef .tc main_arg8) = m ((c : Thread nD τ).loc main_arg8) :=
  (W2_of_ne m ρ c main_arg8 (by decide)).trans (by dsimp only [W1, hostOps0]; after_results_simp)

/-! ## Between the two layers -/

theorem W3_arg6 : W3 m ρ c (Proc.devRef .tc main_arg6) = m ((c : Thread nD τ).loc main_arg6) := by
  dsimp only [W3, hostOps1]; after_results_simp; exact W2_arg6 m ρ c
theorem W3_arg7 : W3 m ρ c (Proc.devRef .tc main_arg7) = m ((c : Thread nD τ).loc main_arg7) := by
  dsimp only [W3, hostOps1]; after_results_simp; exact W2_arg7 m ρ c
theorem W3_arg8 : W3 m ρ c (Proc.devRef .tc main_arg8) = m ((c : Thread nD τ).loc main_arg8) := by
  dsimp only [W3, hostOps1]; after_results_simp; exact W2_arg8 m ρ c
theorem W3_v23 : W3 m ρ c (Proc.devRef .tc main_v23) = hidden (m ((c : Thread nD τ).loc main_arg0)) (m ((c : Thread nD τ).loc main_arg1)) (m ((c : Thread nD τ).loc main_arg3)) (m ((c : Thread nD τ).loc main_arg4)) (m ((c : Thread nD τ).loc main_arg5)) := by
  dsimp only [W3, hostOps1]; after_results_simp; exact W2_v23 m ρ c

/-- The neighbour means of the hidden features. -/
theorem W3_v38 : W3 m ρ c (Proc.devRef .tc main_v38) = aggr (hidden (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  dsimp only [W3, hostOps1]; after_results_simp
  rw [W2_v23, W2_v1, W2_v3, W2_v7]
  rfl

/-! ## The second layer's region -/

/-- The node embeddings: region 1's output array. -/
theorem W4_v39 : W4 m ρ c (Proc.devRef .tc main_v39) = embed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ?_
  rw [final1]
  show Gnn.sageLin (W3 m ρ c (Proc.devRef .tc main_v38)) (W3 m ρ c (Proc.devRef .tc main_v23)) (W3 m ρ c (Proc.devRef .tc main_arg6))
    (W3 m ρ c (Proc.devRef .tc main_arg7)) (W3 m ρ c (Proc.devRef .tc main_arg8)) = _
  rw [W3_v38, W3_v23, W3_arg6, W3_arg7, W3_arg8]
  rfl

/-! ## Buffers that nothing writes before the decoder -/

/-- Decides that no operation of a literal stretch writes a given buffer. -/
local macro "not_written" : tactic =>
  `(tactic| (refine List.forall_iff_forall_mem.mp ?_
             simp only [hostOps0, hostOps1, hostOps2, List.Forall, StableHlo.nullary_writes, StableHlo.unary_writes,
               StableHlo.binary_writes, StableHlo.ternary_writes, StableHlo.reshape_writes, Finset.mem_singleton]
             repeat' apply And.intro
             all_goals exact StableHlo.devRef_ne_of_ne (by decide)))

/-- A buffer that no operation of the first three stretches writes and that is no array of the two layer regions holds
    its launch contents when the second layer's region is left … -/
theorem W4_keep (b : Ref sig .tc)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (n0 : ∀ w, Pipeline.arrRef spec0 w ≠ b) (n1 : ∀ w, Pipeline.arrRef spec1 w ≠ b) :
    W4 m ρ c (Proc.devRef .tc b) = m ((c : Thread nD τ).loc b) :=
  (W4_of_ne m ρ c b n1).trans ((StableHlo.after_of_forall_not_mem _ _ h1).trans
    ((W2_of_ne m ρ c b n0).trans (StableHlo.after_of_forall_not_mem _ _ h0)))

/-- … and when the decoder's region is entered. -/
theorem W5_keep (b : Ref sig .tc)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (h2 : ∀ op ∈ (hostOps2 : List (HloOp τ sig (Elt Ideal))), Proc.devRef .tc b ∉ op.writes)
    (n0 : ∀ w, Pipeline.arrRef spec0 w ≠ b) (n1 : ∀ w, Pipeline.arrRef spec1 w ≠ b) :
    W5 m ρ c (Proc.devRef .tc b) = m ((c : Thread nD τ).loc b) :=
  (StableHlo.after_of_forall_not_mem _ _ h2).trans (W4_keep m ρ c b h0 h1 n0 n1)

theorem W4_arg2 : W4 m ρ c (Proc.devRef .tc main_arg2) = m ((c : Thread nD τ).loc main_arg2) :=
  W4_keep m ρ c main_arg2 (by not_written) (by not_written) (by decide) (by decide)
theorem W5_arg9 : W5 m ρ c (Proc.devRef .tc main_arg9) = m ((c : Thread nD τ).loc main_arg9) :=
  W5_keep m ρ c main_arg9 (by not_written) (by not_written) (by not_written) (by decide) (by decide)
theorem W5_arg10 : W5 m ρ c (Proc.devRef .tc main_arg10) = m ((c : Thread nD τ).loc main_arg10) :=
  W5_keep m ρ c main_arg10 (by not_written) (by not_written) (by not_written) (by decide) (by decide)
theorem W5_arg11 : W5 m ρ c (Proc.devRef .tc main_arg11) = m ((c : Thread nD τ).loc main_arg11) :=
  W5_keep m ρ c main_arg11 (by not_written) (by not_written) (by not_written) (by decide) (by decide)
theorem W5_arg12 : W5 m ρ c (Proc.devRef .tc main_arg12) = m ((c : Thread nD τ).loc main_arg12) :=
  W5_keep m ρ c main_arg12 (by not_written) (by not_written) (by not_written) (by decide) (by decide)
theorem W5_arg13 : W5 m ρ c (Proc.devRef .tc main_arg13) = m ((c : Thread nD τ).loc main_arg13) :=
  W5_keep m ρ c main_arg13 (by not_written) (by not_written) (by not_written) (by decide) (by decide)
theorem W5_arg14 : W5 m ρ c (Proc.devRef .tc main_arg14) = m ((c : Thread nD τ).loc main_arg14) :=
  W5_keep m ρ c main_arg14 (by not_written) (by not_written) (by not_written) (by decide) (by decide)

/-! ## The two gathers, the decoder's region, the last reshape -/

/-- The embedding rows of the pairs' first nodes. -/
theorem W5_v50 : W5 m ρ c (Proc.devRef .tc main_v50)
    = pick0 (embed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg2)) := by
  dsimp only [W5, hostOps2]; after_results_simp
  rw [W4_v39, W4_arg2]
  rfl

/-- The embedding rows of the pairs' second nodes. -/
theorem W5_v57 : W5 m ρ c (Proc.devRef .tc main_v57)
    = pick1 (embed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg2)) := by
  dsimp only [W5, hostOps2]; after_results_simp
  rw [W4_v39, W4_arg2]
  rfl

/-- The result buffer at the last boundary is the network function of the arguments' launch contents. -/
theorem W7_v59 : W7 m ρ c (Proc.devRef .tc main_v59)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  dsimp only [W7, hostOps3]; after_results
  rw [W6_arr m ρ c 8, final2]
  show shapeCast _ (Gnn.mlp (W5 m ρ c (Proc.devRef .tc main_v50)) (W5 m ρ c (Proc.devRef .tc main_v57)) (W5 m ρ c (Proc.devRef .tc main_arg9))
    (W5 m ρ c (Proc.devRef .tc main_arg10)) (W5 m ρ c (Proc.devRef .tc main_arg11)) (W5 m ρ c (Proc.devRef .tc main_arg12))
    (W5 m ρ c (Proc.devRef .tc main_arg13)) (W5 m ρ c (Proc.devRef .tc main_arg14))) _ = _
  rw [W5_v50, W5_v57, W5_arg9, W5_arg10, W5_arg11, W5_arg12, W5_arg13, W5_arg14]
  rfl

end Cert.KernelIdeal.Hand

end
-- ==== Proof.RefLayers.lean ====
/-
  The reference's dense stages, written with the host's matrix products, transposes and broadcasts, are the entrywise
  functions of Spec: read at an index, a host matrix product with a transposed weight is the row's sum against the weight's
  row, a bias broadcast along the rows is the bias at the column, and the activation is the maximum with zero.
-/
import proofs.«180107_j64888365907988_1_alg».proof.ReferenceIdeal
import proofs.«180107_j64888365907988_1_alg».proof.Proof.Gen.ReferenceIdeal
import proofs.«180107_j64888365907988_1_alg».proof.Proof.Spec
import proofs.«180107_j64888365907988_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx

/-- The transposed weight at `(k, q)` is the weight at `(q, k)`. -/
theorem transpose2_apply {N K : Nat} (W : (⟨2, ![N, K]⟩ : Shape).Idx → EReal)
    (h : (⟨2, ![N, K]⟩ : Shape).Transposes [1, 0] ⟨2, ![K, N]⟩) (k : Fin K) (q : Fin N) :
    transpose (⟨2, ![K, N]⟩ : Shape) [1, 0] W h (ix2 k q) = W (ix2 q k) :=
  transpose_apply [1, 0] W h (ix2 k q) (ix2 q k) (fun b => match b with
    | ⟨0, _⟩ => rfl
    | ⟨1, _⟩ => rfl)

/-- A bias broadcast to one row and then along the rows is, at `(r, q)`, the bias at `q`. -/
theorem bias_apply {R C : Nat} (b : (⟨1, ![C]⟩ : Shape).Idx → EReal)
    (h1 : (⟨1, ![C]⟩ : Shape).BroadcastsInDim ⟨2, ![1, C]⟩ ![1])
    (h2 : (⟨2, ![1, C]⟩ : Shape).BroadcastsInDim ⟨2, ![R, C]⟩ ![0, 1]) (i : (⟨2, ![R, C]⟩ : Shape).Idx) :
    broadcastInDim (⟨2, ![R, C]⟩ : Shape) ![0, 1] h2 (broadcastInDim (⟨2, ![1, C]⟩ : Shape) ![1] h1 b) i = b (ix1 (i 1)) := by
  have hlt : (i 1).val < C := (i 1).isLt
  refine (broadcastInDim_apply _ h2 _ i (ix2 ⟨0, Nat.one_pos⟩ (i 1)) (fun a => match a with
    | ⟨0, _⟩ => by show 0 = if (1 : Nat) = 1 then 0 else (i 0).val; rw [if_pos rfl]
    | ⟨1, _⟩ => by
      show (i 1).val = if C = 1 then 0 else (i 1).val
      by_cases hc : C = 1
      · rw [if_pos hc]; omega
      · rw [if_neg hc])).trans ?_
  exact broadcastInDim_apply _ h1 b (ix2 ⟨0, Nat.one_pos⟩ (i 1)) (ix1 (i 1)) (fun a => match a with
    | ⟨0, _⟩ => by
      show (i 1).val = if C = 1 then 0 else (i 1).val
      by_cases hc : C = 1
      · rw [if_pos hc]; omega
      · rw [if_neg hc])

/-- The zero scalar broadcast to any shape is the zero of Spec at every index. -/
theorem zero_apply {s : Shape} (h : (⟨0, ![]⟩ : Shape).BroadcastsInDim s ![]) (i : s.Idx) :
    broadcastInDim s ![] h (constant (F := Ideal) (⟨0, ![]⟩ : Shape) .f32 0x00000000#32) i = Gnn.zeroF := rfl

/-- The host's plain product of `x` with the transposed weight, at `(r, q)`, is row `r` of `x` against row `q` of the weight. -/
theorem dotT_apply {M K N : Nat} (D : DotDims ⟨2, ![M, K]⟩ ⟨2, ![K, N]⟩ ⟨2, ![M, N]⟩) (hD : D = DotDims.plain M K N)
    (x : FVec Ideal ⟨2, ![M, K]⟩ .f32) (W : FVec Ideal ⟨2, ![N, K]⟩ .f32)
    (h : (⟨2, ![N, K]⟩ : Shape).Transposes [1, 0] ⟨2, ![K, N]⟩) (i : (⟨2, ![M, N]⟩ : Shape).Idx) :
    Host.dotGeneral (F := Ideal) D none x (transpose (⟨2, ![K, N]⟩ : Shape) [1, 0] W h) i
      = Gnn.rowDot (Gnn.row x (i 0)) W (i 1) := by
  subst hD
  simp only [Host.dotGeneral]
  refine (PlainDot.dotGeneral_apply M K N _ x _ i).trans ?_
  unfold Gnn.rowDot Gnn.row
  refine Finset.sum_congr rfl fun k _ => ?_
  rw [transpose2_apply W h k ⟨(i 1).val, (i 1).isLt⟩]
  rfl

/-- The first SAGE layer as the reference writes it. -/
theorem sage_relu_eq (a x : FVec Ideal S100000x128 .f32) (Wl : FVec Ideal S128x128 .f32)
    (bl : FVec Ideal S128 .f32) (Wr : FVec Ideal S128x128 .f32) :
    maximumf (addf (addf (Host.dotGeneral (F := Ideal) dot_S100000x128_S128x128_S100000x128_1_0_0_1_n_n none a (transpose S128x128 [1, 0] Wl transposes_S128x128_S128x128_1_0)) (broadcastInDim S100000x128 ![0, 1] bcast_S1x128_S100000x128_0_1 (broadcastInDim S1x128 ![1] bcast_S128_S1x128_1 bl))) (Host.dotGeneral (F := Ideal) dot_S100000x128_S128x128_S100000x128_1_0_0_1_n_n none x (transpose S128x128 [1, 0] Wr transposes_S128x128_S128x128_1_0))) (broadcastInDim S100000x128 ![] bcast_S_S100000x128 (constant (F := Ideal) S_ .f32 0x00000000#32))
      = Gnn.sageRelu a x Wl bl Wr := by
  funext i
  have hd : dot_S100000x128_S128x128_S100000x128_1_0_0_1_n_n = DotDims.plain 100000 128 128 := rfl
  rw [maximumf_apply, addf_apply, addf_apply, dotT_apply _ hd a Wl, dotT_apply _ hd x Wr, bias_apply, zero_apply]
  rfl

/-- The second SAGE layer as the reference writes it. -/
theorem sage_lin_eq (a x : FVec Ideal S100000x128 .f32) (Wl : FVec Ideal S128x128 .f32)
    (bl : FVec Ideal S128 .f32) (Wr : FVec Ideal S128x128 .f32) :
    addf (addf (Host.dotGeneral (F := Ideal) dot_S100000x128_S128x128_S100000x128_1_0_0_1_n_n none a (transpose S128x128 [1, 0] Wl transposes_S128x128_S128x128_1_0)) (broadcastInDim S100000x128 ![0, 1] bcast_S1x128_S100000x128_0_1 (broadcastInDim S1x128 ![1] bcast_S128_S1x128_1 bl))) (Host.dotGeneral (F := Ideal) dot_S100000x128_S128x128_S100000x128_1_0_0_1_n_n none x (transpose S128x128 [1, 0] Wr transposes_S128x128_S128x128_1_0))
      = Gnn.sageLin a x Wl bl Wr := by
  funext i
  have hd : dot_S100000x128_S128x128_S100000x128_1_0_0_1_n_n = DotDims.plain 100000 128 128 := rfl
  rw [addf_apply, addf_apply, dotT_apply _ hd a Wl, dotT_apply _ hd x Wr, bias_apply]
  rfl
/-- The decoder's first hidden layer as the reference writes it: row `r` is `hid1` of the two embedding rows `r`. -/
theorem hid1_eq (z0 z1 : FVec Ideal S500000x128 .f32) (W1 : FVec Ideal S128x128 .f32) (b1 : FVec Ideal S128 .f32) :
    maximumf (addf (Host.dotGeneral (F := Ideal) dot_S500000x128_S128x128_S500000x128_1_0_0_1_n_n none (mulf z0 z1) (transpose S128x128 [1, 0] W1 transposes_S128x128_S128x128_1_0)) (broadcastInDim S500000x128 ![0, 1] bcast_S1x128_S500000x128_0_1 (broadcastInDim S1x128 ![1] bcast_S128_S1x128_1 b1))) (broadcastInDim S500000x128 ![] bcast_S_S500000x128 (constant (F := Ideal) S_ .f32 0x00000000#32))
      = fun i : S500000x128.Idx => Gnn.hid1 (Gnn.row z0 (i 0)) (Gnn.row z1 (i 0)) W1 b1 (i 1) := by
  funext i
  have hd : dot_S500000x128_S128x128_S500000x128_1_0_0_1_n_n = DotDims.plain 500000 128 128 := rfl
  rw [maximumf_apply, addf_apply, dotT_apply _ hd (mulf z0 z1) W1, bias_apply, zero_apply]
  rfl

/-- The decoder's second hidden layer over any first hidden array: row `r` is `hid2` of that array's row `r`. -/
theorem hid2_eq (h : FVec Ideal S500000x128 .f32) (W2 : FVec Ideal S64x128 .f32) (b2 : FVec Ideal S64 .f32) :
    maximumf (addf (Host.dotGeneral (F := Ideal) dot_S500000x128_S128x64_S500000x64_1_0_0_1_n_n none h (transpose S128x64 [1, 0] W2 transposes_S64x128_S128x64_1_0)) (broadcastInDim S500000x64 ![0, 1] bcast_S1x64_S500000x64_0_1 (broadcastInDim S1x64 ![1] bcast_S64_S1x64_1 b2))) (broadcastInDim S500000x64 ![] bcast_S_S500000x64 (constant (F := Ideal) S_ .f32 0x00000000#32))
      = fun i : S500000x64.Idx => Gnn.hid2 (Gnn.row h (i 0)) W2 b2 (i 1) := by
  funext i
  have hd : dot_S500000x128_S128x64_S500000x64_1_0_0_1_n_n = DotDims.plain 500000 128 64 := rfl
  rw [maximumf_apply, addf_apply, dotT_apply _ hd h W2, bias_apply, zero_apply]
  rfl

/-- The decoder's last affine map over any second hidden array. -/
theorem out3_eq (h : FVec Ideal S500000x64 .f32) (W3 : FVec Ideal S1x64 .f32) (b3 : FVec Ideal S1 .f32) :
    addf (Host.dotGeneral (F := Ideal) dot_S500000x64_S64x1_S500000x1_1_0_0_1_n_n none h (transpose S64x1 [1, 0] W3 transposes_S1x64_S64x1_1_0)) (broadcastInDim S500000x1 ![0, 1] bcast_S1x1_S500000x1_0_1 (broadcastInDim S1x1 ![1] bcast_S1_S1x1_1 b3))
      = fun i : S500000x1.Idx => Gnn.rowDot (Gnn.row h (i 0)) W3 (i 1) + b3 (ix1 (i 1)) := by
  funext i
  have hd : dot_S500000x64_S64x1_S500000x1_1_0_0_1_n_n = DotDims.plain 500000 64 1 := rfl
  rw [addf_apply, dotT_apply _ hd h W3, bias_apply]

/-- The decoder as the reference writes it. -/
theorem mlp_eq (z0 z1 : FVec Ideal S500000x128 .f32) (W1 : FVec Ideal S128x128 .f32)
    (b1 : FVec Ideal S128 .f32) (W2 : FVec Ideal S64x128 .f32) (b2 : FVec Ideal S64 .f32)
    (W3 : FVec Ideal S1x64 .f32) (b3 : FVec Ideal S1 .f32) :
    addf (Host.dotGeneral (F := Ideal) dot_S500000x64_S64x1_S500000x1_1_0_0_1_n_n none (maximumf (addf (Host.dotGeneral (F := Ideal) dot_S500000x128_S128x64_S500000x64_1_0_0_1_n_n none (maximumf (addf (Host.dotGeneral (F := Ideal) dot_S500000x128_S128x128_S500000x128_1_0_0_1_n_n none (mulf z0 z1) (transpose S128x128 [1, 0] W1 transposes_S128x128_S128x128_1_0)) (broadcastInDim S500000x128 ![0, 1] bcast_S1x128_S500000x128_0_1 (broadcastInDim S1x128 ![1] bcast_S128_S1x128_1 b1))) (broadcastInDim S500000x128 ![] bcast_S_S500000x128 (constant (F := Ideal) S_ .f32 0x00000000#32))) (transpose S128x64 [1, 0] W2 transposes_S64x128_S128x64_1_0)) (broadcastInDim S500000x64 ![0, 1] bcast_S1x64_S500000x64_0_1 (broadcastInDim S1x64 ![1] bcast_S64_S1x64_1 b2))) (broadcastInDim S500000x64 ![] bcast_S_S500000x64 (constant (F := Ideal) S_ .f32 0x00000000#32))) (transpose S64x1 [1, 0] W3 transposes_S1x64_S64x1_1_0)) (broadcastInDim S500000x1 ![0, 1] bcast_S1x1_S500000x1_0_1 (broadcastInDim S1x1 ![1] bcast_S1_S1x1_1 b3))
      = Gnn.mlp z0 z1 W1 b1 W2 b2 W3 b3 := by
  rw [hid1_eq, hid2_eq, out3_eq]
  rfl

end Cert.ReferenceIdeal.Hand

end
-- ==== Proof.RefTerm.lean ====
/-
  The reference's result, as its generated run states it (one composed term of the arguments), is the network function of
  the arguments: its three dense stages are the entrywise functions of Spec (the first layer's term occurs four times, the
  second twice), and the rest of the term is the host operations the network function is written with.
-/
import proofs.«180107_j64888365907988_1_alg».proof.Proof.Gen.ReferenceIdeal.Run
import proofs.«180107_j64888365907988_1_alg».proof.Proof.HostFns
import proofs.«180107_j64888365907988_1_alg».proof.Proof.RefLayers

set_option maxRecDepth 16384

noncomputable section

namespace Cert.ReferenceIdeal.Hand

open Cert.ReferenceIdeal Cert.ReferenceIdeal.Gen Idealize.ShloMosaic Idealize.ShloMosaic.TcCoe Idealize.SL.Sem

/-- The reference run's result term is the network function of the launch contents of the fifteen arguments. -/
theorem res_eq (m : (ℓ : Loc nD τ sig) → Buf (Elt Ideal) ℓ) (c : Dev nD) :
    Cert.ReferenceIdeal.Value.res_main_v95 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) := by
  unfold Cert.ReferenceIdeal.Value.res_main_v95
  rw [sage_relu_eq]
  rw [sage_lin_eq]
  rw [mlp_eq]
  rfl

end Cert.ReferenceIdeal.Hand

end
-- ==== Proof.lean ====
/-
  A three-stage graph network (two SAGE layers and a pair decoder) computed by three kernels among host operations, against
  the same network written with host matrix products. Over the extended reals both programs compute one function of the
  fifteen arguments: the edge gathers, scatter-adds, degree normalisation and pair gathers are the same host operations on
  both sides, and each kernel region, computing its dense stage five thousand rows at a time, leaves in its output array the
  same entrywise function that the host's matrix product, transposed weight, broadcast bias and maximum with zero compute
  whole. No law of the extended reals beyond the definitions is used, so the inputs' finiteness is never opened.
  The kernel programs' frames are the generated ones; the reference's frame is its generated run with the result dropped;
  the idealization rewrote nothing, so there is nothing to preserve.
-/
import proofs.«180107_j64888365907988_1_alg».proof.Defs
import proofs.«180107_j64888365907988_1_alg».proof.Proof.Gen.Kernel
import proofs.«180107_j64888365907988_1_alg».proof.Proof.Gen.Kernel.Frame
import proofs.«180107_j64888365907988_1_alg».proof.Proof.Gen.KernelIdeal
import proofs.«180107_j64888365907988_1_alg».proof.Proof.Gen.KernelIdeal.Frame
import proofs.«180107_j64888365907988_1_alg».proof.Proof.Gen.ReferenceIdeal
import proofs.«180107_j64888365907988_1_alg».proof.Proof.Gen.ReferenceIdeal.Run
import proofs.«180107_j64888365907988_1_alg».proof.Proof.Gen.Pre_finite_inputs
import proofs.«180107_j64888365907988_1_alg».proof.Proof.KernelRun
import proofs.«180107_j64888365907988_1_alg».proof.Proof.Chain
import proofs.«180107_j64888365907988_1_alg».proof.Proof.RefTerm
import Idealize.ShloMosaic.Adequacy
import Idealize.ShloMosaic.Init

noncomputable section

namespace Cert.Proof

open Idealize.ShloMosaic Idealize.SL.Sem

/-- Both idealized programs end with the network function of the (agreeing) arguments in their result buffers. -/
theorem algebraic : Cert.algebraic_KernelIdeal_ReferenceIdeal := by
  intro m ρ m' ρ' _ hagree
  refine ⟨fun c => Cert.ReferenceIdeal.Hand.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Hand.W7_v59 m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.Hand.res_eq, e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
